-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S256x256x19x4 : Shape := ⟨4, ![256, 256, 19, 4]⟩
abbrev S256 : Shape := ⟨1, ![256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x256x19x4 : S_.BroadcastsInDim S256x256x19x4 (![] : Fin 0 → Fin S256x256x19x4.rank)
  reducesTo_S256x256x19x4_S_d0_1_2_3 : S256x256x19x4.ReducesTo [0, 1, 2, 3] S_
  bcast_S_S256 : S_.BroadcastsInDim S256 (![] : Fin 0 → Fin S256.rank)
  reducesTo_S256_S_d0 : S256.ReducesTo [0] S_

variable [Facts]

def fn {F : FTy → Type} [FloatOps F] (main_arg0 : FVec F S1024x256 .f32) (main_arg1 : FVec F S256x256x19x4 .f32) (main_arg2 : FVec F S256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x256x19x4 .f32 := Host.absf main_arg1
  let main_cst_0 : FVec F S_ .f32 := constant S_ .f32 0x7F800000#32
  let main_v5 : FVec F S256x256x19x4 .f32 := broadcastInDim S256x256x19x4 ![] bcast_S_S256x256x19x4 main_cst_0
  let main_v6 : IVec S256x256x19x4 1 := cmpf .olt main_v4 main_v5
  let main_c_1 : IVec S_ 1 := constantI S_ 1 1#1
  let main_v7 : IVec S_ 1 := (fun x v => Host.reduce IntOp.andi x v reducesTo_S256x256x19x4_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S1024x256 : Shape := ⟨2, ![1024, 256]⟩
abbrev S256x256x19x4 : Shape := ⟨4, ![256, 256, 19, 4]⟩
abbrev S256 : Shape := ⟨1, ![256]⟩
abbrev S19x4x256x256 : Shape := ⟨4, ![19, 4, 256, 256]⟩
abbrev S1x256 : Shape := ⟨2, ![1, 256]⟩
abbrev S512x256 : Shape := ⟨2, ![512, 256]⟩
abbrev S1x4x256x256 : Shape := ⟨4, ![1, 4, 256, 256]⟩
abbrev S1x1x256x256 : Shape := ⟨4, ![1, 1, 256, 256]⟩
abbrev S256x256 : Shape := ⟨2, ![256, 256]⟩

abbrev nBuf : Space → Nat
  | .hbm => 7
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S256x256x19x4, .f32⟩
  | .hbm, ⟨2, _⟩ => ⟨S256, .f32⟩
  | .hbm, ⟨3, _⟩ => ⟨S19x4x256x256, .f32⟩
  | .hbm, ⟨4, _⟩ => ⟨S19x4x256x256, .bf16⟩
  | .hbm, ⟨5, _⟩ => ⟨S1x256, .f32⟩
  | .hbm, ⟨6, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S1x4x256x256, .bf16⟩
  | .local _ .vmem, ⟨3, _⟩ => ⟨S1x4x256x256, .bf16⟩
  | .local _ .vmem, ⟨4, _⟩ => ⟨S1x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 19], ![false, false]⟩

def k0_cond2 (i : grid0.Coords) : BitVec 1 :=
  let arg1 : BitVec 32 := BitVec.ofNat 32 (i 1).val
  let c18_i32_27 : BitVec 32 := 18#32
  let v53 : BitVec 1 := Scalar.cmpi .eq arg1 c18_i32_27
  let v54 : BitVec 32 := Scalar.extui v53
  let c0_i32_28 : BitVec 32 := 0#32
  let v55 : BitVec 1 := Scalar.cmpi .ne v54 c0_i32_28
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S256x256x19x4_S19x4x256x256_2_3_1_0 : S256x256x19x4.Transposes [2, 3, 1, 0] S19x4x256x256
  bitsLt_bf16_f32 : FTy.bits .bf16 < FTy.bits .f32
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  natLt_1_32 : 1 < 32
  inb_S1x4x256x256_S1x1x256x256_0_0_0_0 : ∀ a, (![0, 0, 0, 0] : Fin 4 → Nat) a + S1x1x256x256.size a ≤ S1x4x256x256.size a
  h_S1x1x256x256 : 0 < S1x1x256x256.numel
  shapeCasts_S1x1x256x256_S256x256 : S1x1x256x256.ShapeCasts S256x256
  inb_S1x4x256x256_S1x1x256x256_0_1_0_0 : ∀ a, (![0, 1, 0, 0] : Fin 4 → Nat) a + S1x1x256x256.size a ≤ S1x4x256x256.size a
  inb_S1x4x256x256_S1x1x256x256_0_2_0_0 : ∀ a, (![0, 2, 0, 0] : Fin 4 → Nat) a + S1x1x256x256.size a ≤ S1x4x256x256.size a
  inb_S1x4x256x256_S1x1x256x256_0_3_0_0 : ∀ a, (![0, 3, 0, 0] : Fin 4 → Nat) a + S1x1x256x256.size a ≤ S1x4x256x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S1024x256.size a
  hwx0_0 : ∀ i : grid0.Coords, EltTy.bits .f32 = 32 ∨ (Rect.block (s := S1024x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x256x256.size a ≤ S19x4x256x256.size a
  hwx0_1 : ∀ i : grid0.Coords, EltTy.bits .bf16 = 32 ∨ (Rect.block (s := S19x4x256x256) S1x4x256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S1024x256.size a
  hwx0_3 : ∀ i : grid0.Coords, EltTy.bits .f32 = 32 ∨ (Rect.block (s := S1024x256) S512x256.size (cc0_transform_3 i) (hinb0_3 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x256 : Shape := ⟨2, ![1024, 256]⟩
abbrev S256x256x19x4 : Shape := ⟨4, ![256, 256, 19, 4]⟩
abbrev S256 : Shape := ⟨1, ![256]⟩
abbrev S_ : Shape := ⟨0, ![]⟩
abbrev S1x256 : Shape := ⟨2, ![1, 256]⟩
abbrev S1024x256x1 : Shape := ⟨3, ![1024, 256, 1]⟩
abbrev S1024x256x2 : Shape := ⟨3, ![1024, 256, 2]⟩
abbrev S256x1024x256x4 : Shape := ⟨4, ![256, 1024, 256, 4]⟩
abbrev S256x1024x256x1 : Shape := ⟨4, ![256, 1024, 256, 1]⟩
abbrev S256x1024x256 : Shape := ⟨3, ![256, 1024, 256]⟩
abbrev S1x1024x256 : Shape := ⟨3, ![1, 1024, 256]⟩
abbrev S256x1024 : Shape := ⟨2, ![256, 1024]⟩

abbrev nBuf : Space → Nat
  | .hbm => 74
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x256x19x4, .f32⟩
  | .hbm, ⟨2, _⟩ => ⟨S256, .f32⟩
  | .hbm, ⟨3, _⟩ => ⟨S_, .f32⟩
  | .hbm, ⟨4, _⟩ => ⟨S1024x256, .f32⟩
  | .hbm, ⟨5, _⟩ => ⟨S1024x256, .f32⟩
  | .hbm, ⟨6, _⟩ => ⟨S_, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1024x256, .i32⟩
  | .hbm, ⟨15, _⟩ => ⟨S1024x256, .i32⟩
  | .hbm, ⟨16, _⟩ => ⟨S_, .i32⟩
  | .hbm, ⟨17, _⟩ => ⟨S1024x256, .i32⟩
  | .hbm, ⟨18, _⟩ => ⟨S1024x256, .i32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S256, .i32⟩
  | .hbm, ⟨28, _⟩ => ⟨S1x256, .i32⟩
  | .hbm, ⟨29, _⟩ => ⟨S1024x256, .i32⟩
  | .hbm, ⟨30, _⟩ => ⟨S_, .i32⟩
  | .hbm, ⟨31, _⟩ => ⟨S1024x256, .i32⟩
  | .hbm, ⟨32, _⟩ => ⟨S1024x256, .i1⟩
  | .hbm, ⟨33, _⟩ => ⟨S_, .i32⟩
  | .hbm, ⟨34, _⟩ => ⟨S1024x256, .i32⟩
  | .hbm, ⟨35, _⟩ => ⟨S1024x256, .i32⟩
  | .hbm, ⟨36, _⟩ => ⟨S1024x256, .i32⟩
  | .hbm, ⟨37, _⟩ => ⟨S_, .i32⟩
  | .hbm, ⟨38, _⟩ => ⟨S1024x256, .i32⟩
  | .hbm, ⟨39, _⟩ => ⟨S1024x256, .i1⟩
  | .hbm, ⟨40, _⟩ => ⟨S_, .i32⟩
  | .hbm, ⟨41, _⟩ => ⟨S1024x256, .i32⟩
  | .hbm, ⟨42, _⟩ => ⟨S1024x256, .i32⟩
  | .hbm, ⟨43, _⟩ => ⟨S1024x256, .i32⟩
  | .hbm, ⟨44, _⟩ => ⟨S1024x256x1, .i32⟩
  | .hbm, ⟨45, _⟩ => ⟨S1024x256x1, .i32⟩
  | .hbm, ⟨46, _⟩ => ⟨S1024x256x2, .i32⟩
  | .hbm, ⟨47, _⟩ => ⟨S256x1024x256x4, .f32⟩
  | .hbm, ⟨48, _⟩ => ⟨S256x1024x256x1, .f32⟩
  | .hbm, ⟨49, _⟩ => ⟨S256x1024x256, .f32⟩
  | .hbm, ⟨50, _⟩ => ⟨S256x1024x256x1, .f32⟩
  | .hbm, ⟨51, _⟩ => ⟨S256x1024x256, .f32⟩
  | .hbm, ⟨52, _⟩ => ⟨S256x1024x256x1, .f32⟩
  | .hbm, ⟨53, _⟩ => ⟨S256x1024x256, .f32⟩
  | .hbm, ⟨54, _⟩ => ⟨S256x1024x256x1, .f32⟩
  | .hbm, ⟨55, _⟩ => ⟨S256x1024x256, .f32⟩
  | .hbm, ⟨56, _⟩ => ⟨S1x1024x256, .f32⟩
  | .hbm, ⟨57, _⟩ => ⟨S256x1024x256, .f32⟩
  | .hbm, ⟨58, _⟩ => ⟨S256x1024x256, .f32⟩
  | .hbm, ⟨59, _⟩ => ⟨S256x1024x256, .f32⟩
  | .hbm, ⟨60, _⟩ => ⟨S1x1024x256, .f32⟩
  | .hbm, ⟨61, _⟩ => ⟨S256x1024x256, .f32⟩
  | .hbm, ⟨62, _⟩ => ⟨S256x1024x256, .f32⟩
  | .hbm, ⟨63, _⟩ => ⟨S256x1024x256, .f32⟩
  | .hbm, ⟨64, _⟩ => ⟨S1x1024x256, .f32⟩
  | .hbm, ⟨65, _⟩ => ⟨S256x1024x256, .f32⟩
  | .hbm, ⟨66, _⟩ => ⟨S256x1024x256, .f32⟩
  | .hbm, ⟨67, _⟩ => ⟨S256x1024x256, .f32⟩
  | .hbm, ⟨68, _⟩ => ⟨S_, .f32⟩
  | .hbm, ⟨69, _⟩ => ⟨S256x1024, .f32⟩
  | .hbm, ⟨70, _⟩ => ⟨S1024x256, .f32⟩
  | .hbm, ⟨71, _⟩ => ⟨S1x256, .f32⟩
  | .hbm, ⟨72, _⟩ => ⟨S1024x256, .f32⟩
  | .hbm, ⟨73, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_c_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  bcast_S_S1024x256 : S_.BroadcastsInDim S1024x256 (![] : Fin 0 → Fin S1024x256.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S1024x256_S1024x256x1_0_1 : S1024x256.BroadcastsInDim S1024x256x1 (![0, 1] : Fin 2 → Fin S1024x256x1.rank)
  concatenates_S1024x256x1_S1024x256x1_S1024x256x2_d2 : Shape.Concatenates [S1024x256x1, S1024x256x1] S1024x256x2 2
  slices_S256x1024x256x4_S256x1024x256x1_0_0_0_0 : S256x1024x256x4.Slices ![0, 0, 0, 0] S256x1024x256x1
  shapeCasts_S256x1024x256x1_S256x1024x256 : S256x1024x256x1.ShapeCasts S256x1024x256
  slices_S256x1024x256x4_S256x1024x256x1_0_0_0_1 : S256x1024x256x4.Slices ![0, 0, 0, 1] S256x1024x256x1
  slices_S256x1024x256x4_S256x1024x256x1_0_0_0_2 : S256x1024x256x4.Slices ![0, 0, 0, 2] S256x1024x256x1
  slices_S256x1024x256x4_S256x1024x256x1_0_0_0_3 : S256x1024x256x4.Slices ![0, 0, 0, 3] S256x1024x256x1
  bcast_S1024x256_S1x1024x256_1_2 : S1024x256.BroadcastsInDim S1x1024x256 (![1, 2] : Fin 2 → Fin S1x1024x256.rank)
  bcast_S1x1024x256_S256x1024x256_0_1_2 : S1x1024x256.BroadcastsInDim S256x1024x256 (![0, 1, 2] : Fin 3 → Fin S256x1024x256.rank)
  reducesTo_S256x1024x256_S256x1024_d2 : S256x1024x256.ReducesTo [2] S256x1024
  h_S_ : 0 < S_.numel
  transposes_S256x1024_S1024x256_1_0 : S256x1024.Transposes [1, 0] S1024x256
  gather_S256x256x19x4_S1024x256x2_S256x1024x256x4_03_12_n_n_12_2_256114_wf : GatherDims.WF S256x256x19x4 S1024x256x2 S256x1024x256x4 [0, 3] [1, 2] [] [1, 2] [] 2 ![256, 1, 1, 4]

variable [Facts₀]

def gather_S256x256x19x4_S1024x256x2_S256x1024x256x4_03_12_n_n_12_2_256114 : GatherDims S256x256x19x4 S1024x256x2 S256x1024x256x4 where
  offsetDims := [0, 3]
  collapsedSliceDims := [1, 2]
  operandBatchingDims := []
  startIndicesBatchingDims := []
  startIndexMap := [1, 2]
  indexVectorDim := 2
  sliceSizes := ![256, 1, 1, 4]
  wf := gather_S256x256x19x4_S1024x256x2_S256x1024x256x4_03_12_n_n_12_2_256114_wf

class Facts : Prop extends Facts₀ where

variable [Facts]
-- ==== Proof.KernelPieces.lean ====
/-
  What one grid point of the kernel leaves behind, read off the generated runs of its three control cases.
  A grid point (row block, interval k) zeroes the accumulator when k = 0, adds to it the point's four matrix
  products (masked powers of the local abscissa against the interval's coefficient planes), and when k = 18 writes
  accumulator + bias to the output block. Each case's stores cover their buffer whole, so what a case leaves is one
  term: `step` of the point's blocks over the accumulator's earlier contents, and for the last interval the
  bias added to it.
-/
import proofs.«174962_j30588757082465_1_alg».proof.Proof.Gen.KernelIdeal.Value
import Idealize.ShloMosaic.Lib.Pipeline.Value

set_option maxRecDepth 16384

noncomputable section

namespace Cert.KernelIdeal.KanValue

open Cert.KernelIdeal Cert.KernelIdeal.Gen Idealize.ShloMosaic Idealize.ShloMosaic.TcCoe Idealize.ShloMosaic.Tactic Idealize.SL.Sem

variable {F : FTy → Type} [FloatOps F]

/-- The two-axis zero offset, as the constant function. -/
theorem hz2 : (![0, 0] : Fin 2 → Nat) = fun _ => 0 := by funext a; match a with | ⟨0, _⟩ => rfl | ⟨1, _⟩ => rfl

/-- What one grid point leaves in the accumulator: the point's four matrix products of the masked powers of the
    local abscissa (from the abscissa block `x0`) with the four coefficient planes of the point's interval (the
    four unit slices of the coefficient block `x1`), summed, added to what the accumulator held (`acc`). -/
def step (i : grid0.Coords) (x0 : Vec F S512x256 .f32) (x1 : Vec F S1x4x256x256 .bf16) (acc : Vec F S512x256 .f32) :
    Vec F S512x256 .f32 :=
  k0_pay1 (k0_pay8 i x0) (k0_pay9 i x0) (k0_pay10 i x0) (k0_pay11 i x0)
      (k0_pay12 (View.ld x1 (Rect.unit ![0, 0, 0, 0] ![1, 1, 256, 256] inb_S1x4x256x256_S1x1x256x256_0_0_0_0)))
      (k0_pay13 (View.ld x1 (Rect.unit ![0, 1, 0, 0] ![1, 1, 256, 256] inb_S1x4x256x256_S1x1x256x256_0_1_0_0)))
      (View.ld x1 (Rect.unit ![0, 2, 0, 0] ![1, 1, 256, 256] inb_S1x4x256x256_S1x1x256x256_0_2_0_0))
      (View.ld x1 (Rect.unit ![0, 3, 0, 0] ![1, 1, 256, 256] inb_S1x4x256x256_S1x1x256x256_0_3_0_0)) acc

/-- First interval: the accumulator is zeroed, then the point's products are added to the zeros. -/
theorem sout_first (c : Dev nD) (i : grid0.Coords) (arg2 : Memref sig .tc .vmem S512x256 .f32) (harg2 : arg2.IsWhole) (arg3 : Memref sig .tc .vmem S1x4x256x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : cond0_0 i) (hc1 : ¬cond0_1 i)
    (x0 : Vec F S512x256 .f32) (x1 : Vec F S1x4x256x256 .bf16) (x2 : Vec F S1x256 .f32) :
    sout0_A_0 c i arg2 harg2 arg3 harg3 arg4 harg4 arg5 harg5 arg6 harg6 hc0 hc1 x0 x1 x2 = step i x0 x1 k0_pay3 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x256) hz2]
  simp only [View.readAt_eq_ld, harg2.read_unread, harg3.read_unread, View.ld_unit_zero (S := S512x256) hz2,
    View.readCov_unit_zero (S := S512x256) _ hz2]
  rfl

/-- A middle interval: the point's products are added to what the point before left. -/
theorem sout_middle (c : Dev nD) (i : grid0.Coords) (arg2 : Memref sig .tc .vmem S512x256 .f32) (harg2 : arg2.IsWhole) (arg3 : Memref sig .tc .vmem S1x4x256x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : ¬cond0_1 i)
    (x0 : Vec F S512x256 .f32) (x1 : Vec F S1x4x256x256 .bf16) (x2 : Vec F S1x256 .f32) (xs0 : Vec F S512x256 .f32) :
    sout0_B_0 c i arg2 harg2 arg3 harg3 arg4 harg4 arg5 harg5 arg6 harg6 hc0 hc1 x0 x1 x2 xs0 = step i x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg6.read_unread,
    View.ld_unit_zero (S := S512x256) hz2]
  rfl

/-- The last interval leaves the same in the accumulator … -/
theorem sout_last (c : Dev nD) (i : grid0.Coords) (arg2 : Memref sig .tc .vmem S512x256 .f32) (harg2 : arg2.IsWhole) (arg3 : Memref sig .tc .vmem S1x4x256x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : cond0_1 i)
    (x0 : Vec F S512x256 .f32) (x1 : Vec F S1x4x256x256 .bf16) (x2 : Vec F S1x256 .f32) (xs0 : Vec F S512x256 .f32) :
    sout0_C_0 c i arg2 harg2 arg3 harg3 arg4 harg4 arg5 harg5 arg6 harg6 hc0 hc1 x0 x1 x2 xs0 = step i x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg6.read_unread,
    View.ld_unit_zero (S := S512x256) hz2]
  rfl

/-- … and writes the accumulator it has just stored, plus the bias row, to the output block. -/
theorem out_last (c : Dev nD) (i : grid0.Coords) (arg2 : Memref sig .tc .vmem S512x256 .f32) (harg2 : arg2.IsWhole) (arg3 : Memref sig .tc .vmem S1x4x256x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : cond0_1 i)
    (x0 : Vec F S512x256 .f32) (x1 : Vec F S1x4x256x256 .bf16) (x2 : Vec F S1x256 .f32) (xs0 : Vec F S512x256 .f32) :
    out0_C_3 c i arg2 harg2 arg3 harg3 arg4 harg4 arg5 harg5 arg6 harg6 hc0 hc1 x0 x1 x2 xs0 = k0_pay2 (step i x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.ld_unit_zero (S := S512x256) hz2, View.ld_unit_zero (S := S1x256) hz2,
    View.readCov_unit_zero (S := S512x256) _ hz2]
  rfl

end Cert.KernelIdeal.KanValue

end
-- ==== Proof.Spline.lean ====
/-
  The piecewise-cubic layer as mathematics, over the extended reals.
  An abscissa x lies in the knot interval knot(x) = clamp(floor((x - lo) / step), 0, 18), with lo = -5 and step the
  single-precision value nearest 10/19, and sits at loc(x) = x - (lo + knot(x) * step) from that interval's left knot.
  With c[i, k, m] the coefficient of loc^m on interval k for input coordinate i, one output entry is
      sum_i (c[i, knot x_i, 0] + c[i, knot x_i, 1] loc + c[i, knot x_i, 2] loc^2 + c[i, knot x_i, 3] loc^3) + bias.
  Two arrangements of that number are stated here: the cubic evaluated by Horner's rule at the selected interval
  (`horner`), and the sum over all 19 intervals of the four power sums weighted by the interval's indicator
  (`oneHot`). They agree when every abscissa and every coefficient is a real number (Proof/SplineLaw.lean).
-/
import Idealize.ShloMosaic.PureOps.Ideal
import Idealize.ShloMosaic.Lib.ValueIdx

noncomputable section

namespace Cert.Spline

open Idealize.ShloMosaic

/-- The left end of the knot range: the word of -5. -/
def lo : EReal := Ideal.ofBits .f32 0xC0A00000#32

/-- The knot spacing: the word of the single-precision value nearest 10/19. -/
def step : EReal := Ideal.ofBits .f32 0x3F06BCA2#32

/-- The knot interval of an abscissa: floor((x - lo) / step) as a signed 32-bit word, clamped to 0 … 18. -/
def knot (x : EReal) : BitVec 32 :=
  IntOp.minsi 18#32 (IntOp.maxsi 0#32 (Ideal.fptosi 32 (Ideal.liftRound Int.floor (Ideal.div (x - lo) step))))

/-- The abscissa measured from the left knot of its interval. -/
def loc (x : EReal) : EReal := x - (lo + (((knot x).toInt : ℝ) : EReal) * step)

/-- The indicator of interval `k`: 1 when `knot x = k`, else 0. -/
def ind (k : BitVec 32) (x : EReal) : EReal := ((((IntOp.cmpi .eq (knot x) k).setWidth 32).toInt : ℝ) : EReal)

/-- The knot interval as an index among the 19 intervals. -/
def knotIdx (x : EReal) : Fin 19 := ⟨min (knot x).toInt.toNat 18, by omega⟩

/-- One interval's share of an output entry: the four power sums over the input coordinates, each weighted by the
    interval's indicator, against that interval's four coefficients. -/
def share (x : Fin 256 → EReal) (c : Fin 256 → Fin 4 → EReal) (k : BitVec 32) : EReal :=
  ((∑ i : Fin 256, ind k (x i) * c i 0 + ∑ i : Fin 256, (ind k (x i) * loc (x i)) * c i 1)
      + ∑ i : Fin 256, (ind k (x i) * (loc (x i) * loc (x i))) * c i 2)
    + ∑ i : Fin 256, (ind k (x i) * (loc (x i) * loc (x i) * loc (x i))) * c i 3

/-- An output entry as the sum of the 19 intervals' shares, plus the bias. -/
def oneHot (x : Fin 256 → EReal) (c : Fin 256 → Fin 19 → Fin 4 → EReal) (bias : EReal) : EReal :=
  (0 + ∑ s ∈ Finset.range 19, share x (fun i m => c i ⟨s % 19, Nat.mod_lt _ (by decide)⟩ m) (BitVec.ofNat 32 s)) + bias

/-- An output entry as the sum over the input coordinates of the selected interval's cubic, by Horner's rule, plus
    the bias. -/
def horner (x : Fin 256 → EReal) (c : Fin 256 → Fin 19 → Fin 4 → EReal) (bias : EReal) : EReal :=
  (0 + ∑ i : Fin 256, (((c i (knotIdx (x i)) 3 * loc (x i) + c i (knotIdx (x i)) 2) * loc (x i)
      + c i (knotIdx (x i)) 1) * loc (x i) + c i (knotIdx (x i)) 0)) + bias

/-- Every entry of a family of extended reals is a real number. -/
def AllReal {ι : Type} (f : ι → EReal) : Prop := ∀ i, f i ≠ ⊤ ∧ f i ≠ ⊥

end Cert.Spline

end
-- ==== Proof.KernelStep.lean ====
/-
  One grid point's arithmetic at the ideal instance, index by index. The masked-power blocks are pointwise functions of
  the abscissa block (indicator of the point's interval, times 1, loc, loc², loc³); each of the four matrix products
  into zeros is a sum over the 256 input coordinates; the coefficient planes are the four unit slices of the point's
  coefficient block. So a point's step adds, at (r, j), exactly its interval's share of the output entry.
-/
import proofs.«174962_j30588757082465_1_alg».proof.Proof.KernelPieces
import proofs.«174962_j30588757082465_1_alg».proof.Proof.Spline
import Idealize.ShloMosaic.Lib.ValueIdx
import Idealize.ShloMosaic.PureOps.Ideal.Laws

set_option maxRecDepth 16384

noncomputable section

namespace Cert.KernelIdeal.KanValue

open Cert.KernelIdeal Cert.KernelIdeal.Gen Idealize.ShloMosaic Idealize.ShloMosaic.TcCoe Idealize.SL.Sem

open Idealize.ShloMosaic.ValueIdx

/-! ### The body's matrix product as a sum over the 256 input coordinates -/

theorem lhs_axis0 (j : S512x256.Idx) (k : dot_S512x256_S256x256_S512x256_1_0_0_1_n_n.contr.Idx) : ((dot_S512x256_S256x256_S512x256_1_0_0_1_n_n.lhsIdx j k 0 : Fin _) : ℕ) = j 0 := by
  simp [DotDims.lhsIdx, dot_S512x256_S256x256_S512x256_1_0_0_1_n_n]; rfl
theorem lhs_axis1 (j : S512x256.Idx) (k : dot_S512x256_S256x256_S512x256_1_0_0_1_n_n.contr.Idx) : ((dot_S512x256_S256x256_S512x256_1_0_0_1_n_n.lhsIdx j k 1 : Fin _) : ℕ) = k ⟨0, by decide⟩ := by
  simp [DotDims.lhsIdx, dot_S512x256_S256x256_S512x256_1_0_0_1_n_n]; rfl
theorem rhs_axis0 (j : S512x256.Idx) (k : dot_S512x256_S256x256_S512x256_1_0_0_1_n_n.contr.Idx) : ((dot_S512x256_S256x256_S512x256_1_0_0_1_n_n.rhsIdx j k 0 : Fin _) : ℕ) = k ⟨0, by decide⟩ := by
  simp [DotDims.rhsIdx, dot_S512x256_S256x256_S512x256_1_0_0_1_n_n]; rfl
theorem rhs_axis1 (j : S512x256.Idx) (k : dot_S512x256_S256x256_S512x256_1_0_0_1_n_n.contr.Idx) : ((dot_S512x256_S256x256_S512x256_1_0_0_1_n_n.rhsIdx j k 1 : Fin _) : ℕ) = j 1 := by
  simp [DotDims.rhsIdx, dot_S512x256_S256x256_S512x256_1_0_0_1_n_n]; rfl

/-- A [512, 256] by [256, 256] product into zeros, at (r, j): the sum over k of row r of the left against column j of
    the right. -/
theorem matmul_zero_apply {φ₁ φ₂ : FTy} (A : FVec Ideal S512x256 φ₁) (B : FVec Ideal S256x256 φ₂) (r : Fin 512) (j : Fin 256) :
    matmul dot_S512x256_S256x256_S512x256_1_0_0_1_n_n none A B (constant S512x256 .f32 0x00000000#32) (ix2 r j)
      = ∑ k : Fin 256, A (ix2 r k) * B (ix2 k j) := by
  refine (Ideal.matmul_constant_zero_apply dot_S512x256_S256x256_S512x256_1_0_0_1_n_n none A B (ix2 r j)).trans ?_
  rw [← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  congr 1
  · exact congrArg A (funext fun a => Fin.ext (by
      match a with
      | ⟨0, _⟩ => exact lhs_axis0 _ _
      | ⟨1, _⟩ => exact (lhs_axis1 _ _).trans hk))
  · exact congrArg B (funext fun a => Fin.ext (by
      match a with
      | ⟨0, _⟩ => exact (rhs_axis0 _ _).trans hk
      | ⟨1, _⟩ => exact rhs_axis1 _ _))

/-! ### The body's pointwise payloads at an index -/

theorem knot_apply (X : Vec Ideal S512x256 .f32) (y : S512x256.Idx) : k0_pay4 X y = Cert.Spline.knot (X y) := rfl
theorem loc_apply (X : Vec Ideal S512x256 .f32) (y : S512x256.Idx) : k0_pay5 X y = Cert.Spline.loc (X y) := rfl
theorem ind_apply (i : grid0.Coords) (X : Vec Ideal S512x256 .f32) (y : S512x256.Idx) :
    k0_pay6 i X y = Cert.Spline.ind (BitVec.ofNat 32 (i 1).val) (X y) := rfl

/-! ### The four coefficient planes of a point's coefficient block -/

theorem plane0_apply (x1 : Vec Ideal S1x4x256x256 .bf16) (k j : Fin 256) :
    k0_pay12 (View.ld x1 (Rect.unit ![0, 0, 0, 0] ![1, 1, 256, 256] inb_S1x4x256x256_S1x1x256x256_0_0_0_0)) (ix2 k j)
      = x1 (ix4 0 0 k j) := by
  unfold k0_pay12
  refine (shapeCast_apply _ _ (ix2 k j) (ix4 0 0 k j) (by rw [Shape.rowMajor_val_four, Shape.rowMajor_val_two]; simp)).trans ?_
  exact congrArg x1 (funext fun a => Fin.ext (by
    match a with
    | ⟨0, _⟩ => rfl
    | ⟨1, _⟩ => rfl
    | ⟨2, _⟩ => show 0 + 1 * k.val = k.val; omega
    | ⟨3, _⟩ => show 0 + 1 * j.val = j.val; omega))

theorem plane1_apply (x1 : Vec Ideal S1x4x256x256 .bf16) (k j : Fin 256) :
    k0_pay13 (View.ld x1 (Rect.unit ![0, 1, 0, 0] ![1, 1, 256, 256] inb_S1x4x256x256_S1x1x256x256_0_1_0_0)) (ix2 k j)
      = x1 (ix4 0 1 k j) := by
  unfold k0_pay13
  refine (shapeCast_apply _ _ (ix2 k j) (ix4 0 0 k j) (by rw [Shape.rowMajor_val_four, Shape.rowMajor_val_two]; simp)).trans ?_
  exact congrArg x1 (funext fun a => Fin.ext (by
    match a with
    | ⟨0, _⟩ => rfl
    | ⟨1, _⟩ => rfl
    | ⟨2, _⟩ => show 0 + 1 * k.val = k.val; omega
    | ⟨3, _⟩ => show 0 + 1 * j.val = j.val; omega))

theorem plane2_apply (x1 : Vec Ideal S1x4x256x256 .bf16) (k j : Fin 256) :
    shapeCast S256x256 (View.ld x1 (Rect.unit ![0, 2, 0, 0] ![1, 1, 256, 256] inb_S1x4x256x256_S1x1x256x256_0_2_0_0))
        shapeCasts_S1x1x256x256_S256x256 (ix2 k j)
      = x1 (ix4 0 2 k j) := by
  refine (shapeCast_apply _ _ (ix2 k j) (ix4 0 0 k j) (by rw [Shape.rowMajor_val_four, Shape.rowMajor_val_two]; simp)).trans ?_
  exact congrArg x1 (funext fun a => Fin.ext (by
    match a with
    | ⟨0, _⟩ => rfl
    | ⟨1, _⟩ => rfl
    | ⟨2, _⟩ => show 0 + 1 * k.val = k.val; omega
    | ⟨3, _⟩ => show 0 + 1 * j.val = j.val; omega))

theorem plane3_apply (x1 : Vec Ideal S1x4x256x256 .bf16) (k j : Fin 256) :
    shapeCast S256x256 (View.ld x1 (Rect.unit ![0, 3, 0, 0] ![1, 1, 256, 256] inb_S1x4x256x256_S1x1x256x256_0_3_0_0))
        shapeCasts_S1x1x256x256_S256x256 (ix2 k j)
      = x1 (ix4 0 3 k j) := by
  refine (shapeCast_apply _ _ (ix2 k j) (ix4 0 0 k j) (by rw [Shape.rowMajor_val_four, Shape.rowMajor_val_two]; simp)).trans ?_
  exact congrArg x1 (funext fun a => Fin.ext (by
    match a with
    | ⟨0, _⟩ => rfl
    | ⟨1, _⟩ => rfl
    | ⟨2, _⟩ => show 0 + 1 * k.val = k.val; omega
    | ⟨3, _⟩ => show 0 + 1 * j.val = j.val; omega))

/-! ### One grid point's step, the zeroed accumulator and the bias row, at an index -/

/-- The zeroed accumulator holds 0. -/
theorem zero_apply (y : S512x256.Idx) : k0_pay3 (F := Ideal) y = 0 := by
  unfold k0_pay3
  rw [shapeCast_self]
  exact Ideal.ofBits_zero_f32

/-- The output block: the accumulator plus the bias row. -/
theorem bias_apply (A : Vec Ideal S512x256 .f32) (x2 : Vec Ideal S1x256 .f32) (r : Fin 512) (j : Fin 256) :
    k0_pay2 A x2 (ix2 r j) = A (ix2 r j) + x2 (ix2 0 j) := by
  unfold k0_pay2
  rw [shapeCast_self]
  show A (ix2 r j) + broadcastTo S512x256 x2 broadcasts_S1x256_S512x256 (ix2 r j) = _
  rw [broadcastTo_apply x2 broadcasts_S1x256_S512x256 (ix2 r j) (ix2 0 j) (fun a => by
    match a with
    | ⟨0, _⟩ => rfl
    | ⟨1, _⟩ => rfl)]

/-- One grid point's step at (r, j): what the accumulator held there, plus the point's interval's share of the
    entry (the four power sums over the input coordinates against the interval's coefficient planes). -/
theorem step_apply (i : grid0.Coords) (X : Vec Ideal S512x256 .f32) (Cb : Vec Ideal S1x4x256x256 .bf16)
    (acc : Vec Ideal S512x256 .f32) (r : Fin 512) (j : Fin 256) :
    step i X Cb acc (ix2 r j)
      = acc (ix2 r j) + Cert.Spline.share (fun k => X (ix2 r k)) (fun k mm => Cb (ix4 0 mm k j)) (BitVec.ofNat 32 (i 1).val) := by
  unfold step k0_pay1
  rw [shapeCast_self]
  rw [addf_apply, addf_apply, addf_apply, addf_apply,
    matmul_zero_apply, matmul_zero_apply, matmul_zero_apply, matmul_zero_apply]
  unfold Cert.Spline.share
  congr 1
  congr 1
  · congr 1
    · congr 1
      · exact Finset.sum_congr rfl fun k _ => by rw [plane0_apply]; rfl
      · exact Finset.sum_congr rfl fun k _ => by rw [plane1_apply]; rfl
    · exact Finset.sum_congr rfl fun k _ => by rw [plane2_apply]; rfl
  · exact Finset.sum_congr rfl fun k _ => by rw [plane3_apply]; rfl

end Cert.KernelIdeal.KanValue

end
-- ==== Proof.KernelBlocks.lean ====
/-
  The blocks a grid point works on, read off the arrays the region finds. Point t = 19·(row block) + interval stages
  rows 512·(t / 19) … of the abscissa array, plane t mod 19 of the coefficient array (which the host has laid out as
  [interval, power, input coordinate, output coordinate] from the argument's [output, input, interval, power]), and the
  bias as one row.
-/
import proofs.«174962_j30588757082465_1_alg».proof.Proof.KernelStep
import Idealize.ShloMosaic.Lib.StableHlo.Run

set_option maxRecDepth 16384

noncomputable section

namespace Cert.KernelIdeal.KanValue

open Cert.KernelIdeal Cert.KernelIdeal.Gen Idealize.ShloMosaic Idealize.ShloMosaic.TcCoe Idealize.SL.Sem

open Idealize.ShloMosaic.ValueIdx Idealize.ShloMosaic.StableHlo

variable (m : (ℓ : Loc nD τ sig) → Buf (Elt Ideal) ℓ)

/-- The printed index maps over the grid of 2 row blocks by 19 intervals, point t = 19·(row block) + interval:
    the abscissa and output blocks follow the row block, the coefficient block the interval, the bias block is fixed. -/
theorem idx_facts : ∀ t : Fin cfg0.N,
    win0_0.index t (0 : Fin 2) = t.val / 19 ∧ win0_0.index t (1 : Fin 2) = 0
    ∧ win0_1.index t (0 : Fin 4) = t.val % 19 ∧ win0_1.index t (1 : Fin 4) = 0
    ∧ win0_1.index t (2 : Fin 4) = 0 ∧ win0_1.index t (3 : Fin 4) = 0
    ∧ win0_2.index t (0 : Fin 2) = 0 ∧ win0_2.index t (1 : Fin 2) = 0
    ∧ win0_3.index t (0 : Fin 2) = t.val / 19 ∧ win0_3.index t (1 : Fin 2) = 0 :=
  (by decide +kernel : ∀ t : Fin grid0.N, _)

/-- The point's abscissa block, coefficient block and bias block, at their literal types. -/
abbrev xblk (c : Dev nD) (t : Fin cfg0.N) : Vec Ideal S512x256 .f32 := iblk m c 0 t
abbrev cblk (c : Dev nD) (t : Fin cfg0.N) : Vec Ideal S1x4x256x256 .bf16 := iblk m c 1 t
abbrev bblk (c : Dev nD) (t : Fin cfg0.N) : Vec Ideal S1x256 .f32 := iblk m c 2 t

/-- The coefficient array the region finds: the argument with its axes permuted (interval, power, input coordinate,
    output coordinate); the change of format is the identity here. -/
theorem coeffs_entry (c : Dev nD) :
    @Eq (S19x4x256x256.Idx → Elt Ideal .bf16) (V m c main_v1)
      (truncf (F := Ideal) .bf16 (transpose S19x4x256x256 [2, 3, 1, 0] (m ((c : Thread nD τ).loc main_arg1))
          transposes_S256x256x19x4_S19x4x256x256_2_3_1_0) bitsLt_bf16_f32) := by
  dsimp only [V, hostOps0]; after_results

/-- The bias array the region finds: the argument as one row. -/
theorem bias_entry (c : Dev nD) :
    @Eq (S1x256.Idx → Elt Ideal .f32) (V m c main_v2)
      (shapeCast S1x256 (m ((c : Thread nD τ).loc main_arg2)) shapeCasts_S256_S1x256) := by
  dsimp only [V, hostOps0]; after_results; rfl

theorem xblk_apply (c : Dev nD) (t : Fin cfg0.N) (r : Fin 512) (k : Fin 256) :
    xblk m c t (ix2 r k)
      = m ((c : Thread nD τ).loc main_arg0) (ix2 ⟨512 * (t.val / 19) + r.val, by
          have h1 := t.isLt; have h2 : cfg0.N = 38 := N_0; have := r.isLt; omega⟩ k) := by
  obtain ⟨e0, e1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = 512 * (t.val / 19) + r.val; omega
  | ⟨1, _⟩ => show win0_0.index t (1 : Fin 2) * 256 + 1 * k.val = k.val; omega

theorem cblk_apply (c : Dev nD) (t : Fin cfg0.N) (mm : Fin 4) (k j : Fin 256) :
    cblk m c t (ix4 0 mm k j)
      = m ((c : Thread nD τ).loc main_arg1) (ix4 j k ⟨t.val % 19, Nat.mod_lt _ (by decide)⟩ mm) := by
  obtain ⟨-, -, e2, e3, e4, e5, -⟩ := idx_facts t
  show V m c main_v1 (((cfg0.win 1).blk t).view.emb (ix4 0 mm k j)) = _
  rw [coeffs_entry]
  show transpose S19x4x256x256 [2, 3, 1, 0] (m ((c : Thread nD τ).loc main_arg1)) transposes_S256x256x19x4_S19x4x256x256_2_3_1_0 _ = _
  refine transpose_apply _ _ _ _ _ (fun b => ?_)
  match b with
  | ⟨0, _⟩ => show t.val % 19 = win0_1.index t (0 : Fin 4) * 1 + 1 * 0; omega
  | ⟨1, _⟩ => show mm.val = win0_1.index t (1 : Fin 4) * 4 + 1 * mm.val; omega
  | ⟨2, _⟩ => show k.val = win0_1.index t (2 : Fin 4) * 256 + 1 * k.val; omega
  | ⟨3, _⟩ => show j.val = win0_1.index t (3 : Fin 4) * 256 + 1 * j.val; omega

theorem bblk_apply (c : Dev nD) (t : Fin cfg0.N) (j : Fin 256) :
    bblk m c t (ix2 0 j) = m ((c : Thread nD τ).loc main_arg2) (ix1 j) := by
  obtain ⟨-, -, -, -, -, -, e6, e7, -⟩ := idx_facts t
  show V m c main_v2 (((cfg0.win 2).blk t).view.emb (ix2 0 j)) = _
  rw [bias_entry]
  refine shapeCast_apply _ _ _ (ix1 j) ?_
  rw [Shape.rowMajor_val_one, Shape.rowMajor_val_two]
  show j.val = (win0_2.index t (0 : Fin 2) * 1 + 1 * 0) * 256 + (win0_2.index t (1 : Fin 2) * 256 + 1 * j.val)
  omega

end Cert.KernelIdeal.KanValue

end
-- ==== Proof.KernelFold.lean ====
/-
  The accumulation over a row block's 19 grid points and the output array it ends in. The accumulator after point t
  is zero plus the shares of the intervals 0 … t mod 19 of t's row block; the last interval's point writes accumulator
  plus bias to the row block's output block; the two row blocks' output blocks tile the output array. So the array
  ends at one function of the arguments: entry (b, j) = sum over the 19 intervals of the interval's share of row b
  against output coordinate j's coefficients, plus bias j.
-/
import proofs.«174962_j30588757082465_1_alg».proof.Proof.KernelBlocks

set_option maxRecDepth 16384

noncomputable section

namespace Cert.KernelIdeal.KanValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

open Idealize.ShloMosaic.Pipeline (Dat)

/-- The second grid coordinate of point t is its interval, t mod 19. -/
theorem coord_interval : ∀ t : Fin cfg0.N, ((grid0.coords t) 1).val = t.val % 19 :=
  (by decide +kernel : ∀ t : Fin grid0.N, _)

/-- What point t adds at a block index: its interval's share of the entry, from the point's own blocks. -/
def addend (c : Dev nD) (t : Fin cfg0.N) : S512x256.Idx → EReal := fun y =>
  Cert.Spline.share (fun k => xblk m c t (ix2 (y 0) k)) (fun k mm => cblk m c t (ix4 0 mm k (y 1)))
    (BitVec.ofNat 32 ((grid0.coords t) 1).val)

/-- The same for any natural number (zero past the grid, where it is never used). -/
def addendN (c : Dev nD) (n : ℕ) : S512x256.Idx → EReal :=
  if h : n < cfg0.N then addend m c ⟨n, h⟩ else fun _ => 0

theorem step_addend (c : Dev nD) (t : Fin cfg0.N) (acc : Vec Ideal S512x256 .f32) (y : S512x256.Idx) :
    step (grid0.coords t) (xblk m c t) (cblk m c t) acc y = acc y + addend m c t y := by
  obtain ⟨r, j, rfl⟩ : ∃ (r : Fin 512) (j : Fin 256), y = ix2 r j := ⟨y 0, y 1, eq_ix2 y⟩
  exact step_apply _ _ _ _ _ _

/-- THE ACCUMULATOR after point t: zero plus the addends of the points of t's run so far (the run of a row block
    starts at the multiple of 19 below t). -/
theorem scratch_eq (c : Dev nD) (t : Fin cfg0.N) (y : S512x256.Idx) :
    (outsAt0 m c t.val t.isLt).2 y
      = 0 + ∑ s ∈ Finset.range (t.val % 19 + 1), addendN m c (19 * (t.val / 19) + s) y := by
  have hN : cfg0.N = 38 := N_0
  rw [Cert.KernelIdeal.Value.soutsAt0_0_eq m c t]
  refine Pipeline.accAt_add_apply _ _ (fun _ => 0) (addendN m c) (19 * (t.val / 19)) 18 ?_ ?_ (t.val % 19)
    (by omega) _ y
  · intro h i
    have h0 : (19 * (t.val / 19)) % 19 = 0 := Nat.mul_mod_right _ _
    unfold Cert.KernelIdeal.Value.scAt0_0
    rw [dif_pos h0, dif_neg (by omega), sout_first]
    show step _ (xblk m c ⟨_, h⟩) (cblk m c ⟨_, h⟩) _ i = _
    rw [step_addend, zero_apply]
    unfold addendN; rw [dif_pos h]
  · intro n h acc i hb he
    have h0 : ¬ n % 19 = 0 := by omega
    unfold Cert.KernelIdeal.Value.scAt0_0
    rw [dif_neg h0]
    by_cases h1 : n % 19 = 18
    · rw [dif_pos h1, sout_last]
      show step _ (xblk m c ⟨n, h⟩) (cblk m c ⟨n, h⟩) _ i = _
      rw [step_addend]; unfold addendN; rw [dif_pos h]
    · rw [dif_neg h1, sout_middle]
      show step _ (xblk m c ⟨n, h⟩) (cblk m c ⟨n, h⟩) _ i = _
      rw [step_addend]; unfold addendN; rw [dif_pos h]

/-- The whole output array as one function of the three arguments: entry (b, j) is the sum of the 19 intervals'
    shares of row b against output coordinate j's coefficients, plus bias j. -/
def G (a0 : S1024x256.Idx → EReal) (a1 : S256x256x19x4.Idx → EReal) (a2 : S256.Idx → EReal) : S1024x256.Idx → EReal :=
  fun idx => Cert.Spline.oneHot (fun i => a0 (ix2 (idx 0) i)) (fun i k mm => a1 (ix4 (idx 1) i k mm)) (a2 (ix1 (idx 1)))

/-- WHAT A FLUSHING POINT WRITES BACK (the last interval of a row block) is its block of that function. -/
theorem flushed_eq (c : Dev nD) (t : Fin cfg0.N) (hf : (cfg0.win 3).flush t = true) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  have hN : cfg0.N = 38 := N_0
  have h1 : t.val % 19 = 18 := (flush0_3 t).mp hf
  have h0 : ¬ t.val % 19 = 0 := by omega
  obtain ⟨-, -, -, -, -, -, -, -, e8, e9⟩ := idx_facts t
  rw [Cert.KernelIdeal.Value.flushed3_C m c t h0 h1, out_last]
  funext y
  obtain ⟨r, j, rfl⟩ : ∃ (r : Fin 512) (j : Fin 256), y = ix2 r j := ⟨y 0, y 1, eq_ix2 y⟩
  show k0_pay2 (step (grid0.coords t) (xblk m c t) (cblk m c t) _) (bblk m c t) (ix2 r j) = G _ _ _ (((cfg0.win 3).blk t).view.emb (ix2 r j))
  have hs : step (grid0.coords t) (xblk m c t) (cblk m c t)
      (outsAt0 m c (t.val - 1) (Nat.lt_of_le_of_lt (Nat.sub_le _ _) t.isLt)).2 = (outsAt0 m c t.val t.isLt).2 := by
    rw [outsAt0_C m c t h0 h1]; dsimp only; rw [sout_last]
  have hemb : ((cfg0.win 3).blk t).view.emb (ix2 r j)
      = ix2 (⟨512 * (t.val / 19) + r.val, by have := t.isLt; have := r.isLt; omega⟩ : Fin 1024) j := by
    funext a; apply Fin.ext
    match a with
    | ⟨0, _⟩ => show win0_3.index t (0 : Fin 2) * 512 + 1 * r.val = 512 * (t.val / 19) + r.val; omega
    | ⟨1, _⟩ => show win0_3.index t (1 : Fin 2) * 256 + 1 * j.val = j.val; omega
  rw [bias_apply, hs, scratch_eq, bblk_apply, hemb]
  unfold G Cert.Spline.oneHot
  show _ = (0 + ∑ s ∈ Finset.range 19, Cert.Spline.share
      (fun i => m ((c : Thread nD τ).loc main_arg0) (ix2 (⟨512 * (t.val / 19) + r.val, _⟩ : Fin 1024) i))
      (fun i mm => m ((c : Thread nD τ).loc main_arg1) (ix4 j i ⟨s % 19, _⟩ mm)) (BitVec.ofNat 32 s))
    + m ((c : Thread nD τ).loc main_arg2) (ix1 j)
  rw [h1]
  refine congrArg (· + _) (congrArg (0 + ·) (Finset.sum_congr rfl fun s hs' => ?_))
  have hs19 : s < 19 := Finset.mem_range.mp hs'
  have hlt : 19 * (t.val / 19) + s < cfg0.N := by have := t.isLt; omega
  unfold addendN; rw [dif_pos hlt]
  unfold addend
  have hq : (19 * (t.val / 19) + s) / 19 = t.val / 19 := by omega
  have hr : (19 * (t.val / 19) + s) % 19 = s := by omega
  congr 1
  · funext k
    rw [xblk_apply]
    exact congrArg _ (congrArg (fun a => ix2 a k) (Fin.ext (by show 512 * ((19 * (t.val / 19) + s) / 19) + r.val = _; rw [hq])))
  · funext k mm
    rw [cblk_apply]
    exact congrArg _ (congrArg (fun a => ix4 j k a mm) (Fin.ext (by show (19 * (t.val / 19) + s) % 19 = s % 19; omega)))
  · rw [coord_interval]; show BitVec.ofNat 32 ((19 * (t.val / 19) + s) % 19) = _; rw [hr]

/-- An index of the output array is in point t's block iff each coordinate lies in the block's range on its axis. -/
theorem mem_blk3 (t : Fin cfg0.N) (i : S1024x256.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v3).slice (win0_3.rect t)).set ↔ _
  rw [View.set_slice_whole, Rect.mem_set_unit]
  exact Iff.rfl

/-- Every row belongs to the block written back at the last interval of its row block. -/
theorem cover3 (i : S1024x256.Idx) :
    ∃ t : Fin cfg0.N, (cfg0.win 3).flush t = true ∧ i ∈ ((cfg0.win 3).blk t).view.set := by
  have hN : cfg0.N = 38 := N_0
  have hi0 : (i 0).val < 1024 := (i 0).isLt
  have hi1 : (i 1).val < 256 := (i 1).isLt
  let t : Fin cfg0.N := ⟨19 * ((i 0).val / 512) + 18, by omega⟩
  have ht : t.val = 19 * ((i 0).val / 512) + 18 := rfl
  obtain ⟨-, -, -, -, -, -, -, -, e8, e9⟩ := idx_facts t
  refine ⟨t, (flush0_3 t).mpr (by omega), ?_⟩
  rw [mem_blk3]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 256 ≤ (i 1).val ∧ (i 1).val < win0_3.index t (1 : Fin 2) * 256 + 256
    omega

/-- THE OUTPUT ARRAY after the run is that one function of the arguments. -/
theorem final3 (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 _ (fun t hf => flushed_eq m c t hf) cover3

/-- The kernel's run with its result named: every weakly fair execution ends with the output array at `G` of the
    arguments and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v3)
          = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩)
    (Cert.KernelIdeal.Value.run_blocks m ρ)

end Cert.KernelIdeal.KanValue

end
-- ==== Proof.RefGather.lean ====
/-
  The reference's coefficient gather read at an index. The gather takes, for a row b and an input coordinate i, the
  index pair (idx[b, i, 0], idx[b, i, 1]) into the coefficient array's two middle axes (input coordinate, interval),
  each read as a signed integer and clamped so that the unit slice fits (to 0 … 255 and 0 … 18), and keeps the outer
  axis j and the inner axis m whole: result[j, b, i, m] = x[j, clamp idx[b, i, 0], clamp idx[b, i, 1], m].
-/
import proofs.«174962_j30588757082465_1_alg».proof.Proof.Gen.ReferenceIdeal
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-- The gather's dimension numbers, under a short name: offset axes 0 and 3 of the result, operand axes 1 and 2
    collapsed and addressed by the start index (components 0 and 1), slice sizes 256, 1, 1, 4. -/
private abbrev G : GatherDims S256x256x19x4 S1024x256x2 S256x1024x256x4 :=
  gather_S256x256x19x4_S1024x256x2_S256x1024x256x4_03_12_n_n_12_2_256114

theorem gather_apply {α : Type} (x : S256x256x19x4.Idx → α) (idx : IVec S1024x256x2 32)
    (j : Fin 256) (b : Fin 1024) (i : Fin 256) (mm : Fin 4) :
    Host.gather gather_S256x256x19x4_S1024x256x2_S256x1024x256x4_03_12_n_n_12_2_256114 x idx (ix4 j b i mm)
      = x (ix4 j ⟨min (idx (ix3 b i (0 : Fin 2))).toInt.toNat 255, by omega⟩
            ⟨min (idx (ix3 b i (1 : Fin 2))).toInt.toNat 18, by omega⟩ mm) := by
  -- The result entry is the operand at the operand index; compare that index with the claimed one axis by axis.
  -- On an operand axis the coordinate is start + batching coordinate + offset coordinate. There is no batching axis.
  -- Axes 0 and 3 are kept whole: not in the start index map (start 0), offset coordinate the result's own j resp. m.
  -- Axes 1 and 2 are collapsed (offset 0) and addressed: the start is component 0 resp. 1 of the start index at
  -- (b, i), read signed and clamped to size - 1.
  unfold Host.gather
  congr 1
  funext a
  refine Fin.ext ?_
  match a with
  | ⟨0, _⟩ =>
    show G.start (ix4 j b i mm) idx 0 + G.batchCoord (ix4 j b i mm) 0 + G.offCoord (ix4 j b i mm) 0 = j.val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl
  | ⟨1, _⟩ =>
    show G.start (ix4 j b i mm) idx 1 + G.batchCoord (ix4 j b i mm) 1 + G.offCoord (ix4 j b i mm) 1
      = min (idx (ix3 b i (0 : Fin 2))).toInt.toNat 255
    rw [GatherDims.batchCoord_eq_zero _ _ _ List.not_mem_nil, GatherDims.offCoord_eq_zero _ _ _ (by decide)]
    simp only [Nat.add_zero]
    unfold GatherDims.start
    rw [dif_pos (show (1 : Fin 4) ∈ G.startIndexMap by decide)]
    have hsi : G.siIdx (ix4 j b i mm) ⟨List.idxOf (1 : Fin 4) G.startIndexMap,
        List.idxOf_lt_length_iff.2 (by decide)⟩ = ix3 b i (0 : Fin 2) := by
      funext c; refine Fin.ext ?_
      match c with
      | ⟨0, _⟩ => rfl
      | ⟨1, _⟩ => rfl
      | ⟨2, _⟩ => rfl
    rw [hsi]
    rfl
  | ⟨2, _⟩ =>
    show G.start (ix4 j b i mm) idx 2 + G.batchCoord (ix4 j b i mm) 2 + G.offCoord (ix4 j b i mm) 2
      = min (idx (ix3 b i (1 : Fin 2))).toInt.toNat 18
    rw [GatherDims.batchCoord_eq_zero _ _ _ List.not_mem_nil, GatherDims.offCoord_eq_zero _ _ _ (by decide)]
    simp only [Nat.add_zero]
    unfold GatherDims.start
    rw [dif_pos (show (2 : Fin 4) ∈ G.startIndexMap by decide)]
    have hsi : G.siIdx (ix4 j b i mm) ⟨List.idxOf (2 : Fin 4) G.startIndexMap,
        List.idxOf_lt_length_iff.2 (by decide)⟩ = ix3 b i (1 : Fin 2) := by
      funext c; refine Fin.ext ?_
      match c with
      | ⟨0, _⟩ => rfl
      | ⟨1, _⟩ => rfl
      | ⟨2, _⟩ => rfl
    rw [hsi]
    rfl
  | ⟨3, _⟩ =>
    show G.start (ix4 j b i mm) idx 3 + G.batchCoord (ix4 j b i mm) 3 + G.offCoord (ix4 j b i mm) 3 = mm.val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl

end Cert.ReferenceIdeal.RefValue

end
-- ==== Proof.RefRead.lean ====
/-
  The reference's result read at an index: entry (b, j) is the sum over the input coordinates i of the cubic of the
  interval that x[b, i] falls in, evaluated by Horner's rule at the local abscissa, plus bias[j]. The interval index
  and the input-coordinate index the gather receives are already inside their ranges (the interval was clamped to
  0 … 18 and the coordinate is an iota below 256), so the negative-index wrap and the gather's own clamp change nothing.
-/
import proofs.«174962_j30588757082465_1_alg».proof.Proof.Gen.ReferenceIdeal.Read
import proofs.«174962_j30588757082465_1_alg».proof.Proof.RefGather
import proofs.«174962_j30588757082465_1_alg».proof.Proof.Spline

noncomputable section

namespace Cert.ReferenceIdeal.RefValue

open Cert.ReferenceIdeal Cert.ReferenceIdeal.Gen Cert.ReferenceIdeal.Read Idealize.ShloMosaic Idealize.ShloMosaic.ValueIdx

/-! ## Words: the clamp's range, and a small natural number as a signed word -/

/-- A word clamped to 0 … 18 (signed) lies in that range. -/
theorem clamp_range (w : BitVec 32) :
    0 ≤ (IntOp.minsi 18#32 (IntOp.maxsi 0#32 w)).toInt ∧ (IntOp.minsi 18#32 (IntOp.maxsi 0#32 w)).toInt ≤ 18 := by
  have h18 : (18#32 : BitVec 32).toInt = 18 := by decide
  have h0 : (0#32 : BitVec 32).toInt = 0 := by decide
  unfold IntOp.minsi IntOp.maxsi
  simp only [BitVec.slt, decide_eq_true_eq]
  split_ifs <;> omega

/-- A natural number below 256, as a 32-bit word read signed, is itself. -/
theorem toInt_ofNat_small (n : Nat) (h : n < 256) : (BitVec.ofNat 32 n).toInt = (n : Int) := by
  rw [BitVec.toInt_eq_toNat_cond, BitVec.toNat_ofNat]
  have : n % 2 ^ 32 = n := Nat.mod_eq_of_lt (by omega)
  rw [this]
  split
  · rfl
  · omega

/-- A select on a signed "less than zero" test of a word that is not negative keeps the word. -/
theorem select_neg_wrap (w a : BitVec 32) (h : 0 ≤ w.toInt) :
    Scalar.select (IntOp.cmpi .slt w 0#32) a w = w := by
  have h0 : (0#32 : BitVec 32).toInt = 0 := by decide
  have hs : w.slt 0#32 = false := by
    simp only [BitVec.slt, h0, decide_eq_false_iff_not]; omega
  unfold Scalar.select IntOp.cmpi
  simp only [hs]
  rfl

/-! ## The interval, the local abscissa and the two index planes at (b, i) -/

/-- The clamped interval word at (b, i) is the interval of x[b, i]. -/
theorem knot_at (x0 : (⟨S1024x256, .f32⟩ : BufTy).Contents (Elt Ideal)) (b : Fin 1024) (i : Fin 256) :
    val_main_v6 (F := Ideal) x0 (ix2 b i) = Cert.Spline.knot (x0 (ix2 b i)) := by
  rw [val_main_v6_apply, val_main_call0_v4_apply, val_main_call0_v3_apply, val_main_c_1_apply,
    val_main_call0_v2_apply, val_main_call0_v1_apply, val_main_call0_v0_apply, val_main_c_apply,
    val_main_v5_apply, val_main_v4_apply, val_main_v3_apply, val_main_v1_apply, val_main_v0_apply,
    val_main_cst_apply, val_main_v2_apply, val_main_cst_0_apply]
  rfl

/-- The abscissa less its interval's left knot at (b, i) is the local abscissa of x[b, i]. -/
theorem loc_at (x0 : (⟨S1024x256, .f32⟩ : BufTy).Contents (Elt Ideal)) (b : Fin 1024) (i : Fin 256) :
    val_main_v12 (F := Ideal) x0 (ix2 b i) = Cert.Spline.loc (x0 (ix2 b i)) := by
  rw [val_main_v12_apply, val_main_v11_apply, val_main_v10_apply, val_main_cst_3_apply, val_main_v9_apply,
    val_main_v7_apply, knot_at, val_main_v8_apply, val_main_cst_2_apply]
  rfl

/-- The input-coordinate plane at (b, i) is the word of i: the coordinate is not negative, so the wrap keeps it. -/
theorem coord_at (b : Fin 1024) (i : Fin 256) :
    val_main_v20 (F := Ideal) (ix2 b i) = BitVec.ofNat 32 i.val := by
  have h15 : val_main_v15 (F := Ideal) (ix2 b i) = BitVec.ofNat 32 i.val := by
    rw [val_main_v15_apply, val_main_v14_apply, val_main_v13_apply]
  rw [val_main_v20_apply, val_main_v17_apply, val_main_v16_apply, val_main_c_4_apply, h15]
  exact select_neg_wrap _ _ (by rw [toInt_ofNat_small _ i.isLt]; omega)

/-- The interval plane at (b, i) is the interval of x[b, i]: it is not negative, so the wrap keeps it. -/
theorem interval_at (x0 : (⟨S1024x256, .f32⟩ : BufTy).Contents (Elt Ideal)) (b : Fin 1024) (i : Fin 256) :
    val_main_v25 (F := Ideal) x0 (ix2 b i) = Cert.Spline.knot (x0 (ix2 b i)) := by
  rw [val_main_v25_apply, val_main_v22_apply, val_main_v21_apply, val_main_c_6_apply, knot_at]
  exact select_neg_wrap _ _ (clamp_range _).1

/-- Adding a unit last axis reads (b, i, 0) at (b, i). -/
theorem idx26 (b : Fin 1024) (i : Fin 256) (c : Fin 1) : idx_main_v26 (ix3 b i c) = ix2 b i := by
  funext a; match a with | ⟨0, _⟩ => rfl | ⟨1, _⟩ => rfl

/-- Adding a unit last axis reads (b, i, 0) at (b, i). -/
theorem idx27 (b : Fin 1024) (i : Fin 256) (c : Fin 1) : idx_main_v27 (ix3 b i c) = ix2 b i := by
  funext a; match a with | ⟨0, _⟩ => rfl | ⟨1, _⟩ => rfl

/-- Component 0 of the start index at (b, i): the input coordinate. -/
theorem plane0_at (x0 : (⟨S1024x256, .f32⟩ : BufTy).Contents (Elt Ideal)) (b : Fin 1024) (i : Fin 256) :
    val_main_v28 (F := Ideal) x0 (ix3 b i (0 : Fin 2)) = BitVec.ofNat 32 i.val := by
  unfold val_main_v28
  rw [concatenate_pair_apply_left (2 : Fin 3) (val_main_v26 (F := Ideal)) (val_main_v27 (F := Ideal) x0)
    concatenates_S1024x256x1_S1024x256x1_S1024x256x2_d2 (ix3 b i (0 : Fin 2)) rfl (ix3 b i (0 : Fin 1))
    (fun c => by match c with | ⟨0, _⟩ => rfl | ⟨1, _⟩ => rfl | ⟨2, _⟩ => rfl)]
  rw [val_main_v26_apply, idx26, coord_at]

/-- Component 1 of the start index at (b, i): the interval of x[b, i]. -/
theorem plane1_at (x0 : (⟨S1024x256, .f32⟩ : BufTy).Contents (Elt Ideal)) (b : Fin 1024) (i : Fin 256) :
    val_main_v28 (F := Ideal) x0 (ix3 b i (1 : Fin 2)) = Cert.Spline.knot (x0 (ix2 b i)) := by
  unfold val_main_v28
  rw [concatenate_pair_apply_right (2 : Fin 3) (val_main_v26 (F := Ideal)) (val_main_v27 (F := Ideal) x0)
    concatenates_S1024x256x1_S1024x256x1_S1024x256x2_d2 (ix3 b i (1 : Fin 2)) rfl rfl (ix3 b i (0 : Fin 1))
    (fun c hc => by match c, hc with | ⟨0, _⟩, _ => rfl | ⟨1, _⟩, _ => rfl | ⟨2, _⟩, hc => exact absurd rfl hc) rfl]
  rw [val_main_v27_apply, idx27, interval_at]

/-! ## The gathered coefficients -/

/-- The gather at (j, b, i, m): coefficient m of input coordinate i's cubic on the interval of x[b, i], for output j.
    The start index's components are already in range, so the gather's clamp is the identity on them. -/
theorem gather_at (x0 : (⟨S1024x256, .f32⟩ : BufTy).Contents (Elt Ideal)) (x1 : (⟨S256x256x19x4, .f32⟩ : BufTy).Contents (Elt Ideal)) (j : Fin 256) (b : Fin 1024) (i : Fin 256) (mm : Fin 4) :
    val_main_v29 (F := Ideal) x0 x1 (ix4 j b i mm) = x1 (ix4 j i (Cert.Spline.knotIdx (x0 (ix2 b i))) mm) := by
  unfold val_main_v29
  rw [gather_apply]
  congr 1
  funext a
  refine Fin.ext ?_
  match a with
  | ⟨0, _⟩ => rfl
  | ⟨1, _⟩ =>
    show min (val_main_v28 (F := Ideal) x0 (ix3 b i (0 : Fin 2))).toInt.toNat 255 = i.val
    have hi := i.isLt
    rw [plane0_at, toInt_ofNat_small _ i.isLt, Int.toNat_natCast]; omega
  | ⟨2, _⟩ =>
    show min (val_main_v28 (F := Ideal) x0 (ix3 b i (1 : Fin 2))).toInt.toNat 18
      = min (Cert.Spline.knot (x0 (ix2 b i))).toInt.toNat 18
    rw [plane1_at]
  | ⟨3, _⟩ => rfl

/-! The slices of the inner axis and the reshapes that drop it, as index equations. -/

/-- The reshape that drops the unit inner axis reads (j, b, i) at (j, b, i, 0): the row-major position
    (j * 1024 + b) * 256 + i splits back into its three coordinates. -/
theorem idx31 (j : Fin 256) (b : Fin 1024) (i : Fin 256) : idx_main_v31 (ix3 j b i) = ix4 j b i (0 : Fin 1) := by
  have hj := j.isLt; have hb := b.isLt; have hi := i.isLt
  funext a
  match a with
  | ⟨0, _⟩ => exact Fin.ext (by show ((j.val * 1024 + b.val) * 256 + i.val) / 262144 = j.val; omega)
  | ⟨1, _⟩ => exact Fin.ext (by show ((j.val * 1024 + b.val) * 256 + i.val) / 256 % 1024 = b.val; omega)
  | ⟨2, _⟩ => exact Fin.ext (by show ((j.val * 1024 + b.val) * 256 + i.val) / 1 % 256 = i.val; omega)
  | ⟨3, _⟩ => rfl

/-- The reshape that drops the unit inner axis reads (j, b, i) at (j, b, i, 0): the row-major position
    (j * 1024 + b) * 256 + i splits back into its three coordinates. -/
theorem idx33 (j : Fin 256) (b : Fin 1024) (i : Fin 256) : idx_main_v33 (ix3 j b i) = ix4 j b i (0 : Fin 1) := by
  have hj := j.isLt; have hb := b.isLt; have hi := i.isLt
  funext a
  match a with
  | ⟨0, _⟩ => exact Fin.ext (by show ((j.val * 1024 + b.val) * 256 + i.val) / 262144 = j.val; omega)
  | ⟨1, _⟩ => exact Fin.ext (by show ((j.val * 1024 + b.val) * 256 + i.val) / 256 % 1024 = b.val; omega)
  | ⟨2, _⟩ => exact Fin.ext (by show ((j.val * 1024 + b.val) * 256 + i.val) / 1 % 256 = i.val; omega)
  | ⟨3, _⟩ => rfl

/-- The reshape that drops the unit inner axis reads (j, b, i) at (j, b, i, 0): the row-major position
    (j * 1024 + b) * 256 + i splits back into its three coordinates. -/
theorem idx35 (j : Fin 256) (b : Fin 1024) (i : Fin 256) : idx_main_v35 (ix3 j b i) = ix4 j b i (0 : Fin 1) := by
  have hj := j.isLt; have hb := b.isLt; have hi := i.isLt
  funext a
  match a with
  | ⟨0, _⟩ => exact Fin.ext (by show ((j.val * 1024 + b.val) * 256 + i.val) / 262144 = j.val; omega)
  | ⟨1, _⟩ => exact Fin.ext (by show ((j.val * 1024 + b.val) * 256 + i.val) / 256 % 1024 = b.val; omega)
  | ⟨2, _⟩ => exact Fin.ext (by show ((j.val * 1024 + b.val) * 256 + i.val) / 1 % 256 = i.val; omega)
  | ⟨3, _⟩ => rfl

/-- The reshape that drops the unit inner axis reads (j, b, i) at (j, b, i, 0): the row-major position
    (j * 1024 + b) * 256 + i splits back into its three coordinates. -/
theorem idx37 (j : Fin 256) (b : Fin 1024) (i : Fin 256) : idx_main_v37 (ix3 j b i) = ix4 j b i (0 : Fin 1) := by
  have hj := j.isLt; have hb := b.isLt; have hi := i.isLt
  funext a
  match a with
  | ⟨0, _⟩ => exact Fin.ext (by show ((j.val * 1024 + b.val) * 256 + i.val) / 262144 = j.val; omega)
  | ⟨1, _⟩ => exact Fin.ext (by show ((j.val * 1024 + b.val) * 256 + i.val) / 256 % 1024 = b.val; omega)
  | ⟨2, _⟩ => exact Fin.ext (by show ((j.val * 1024 + b.val) * 256 + i.val) / 1 % 256 = i.val; omega)
  | ⟨3, _⟩ => rfl

/-- The unit slice of the inner axis at offset 0 reads (j, b, i, 0) at (j, b, i, 0). -/
theorem idx30 (j : Fin 256) (b : Fin 1024) (i : Fin 256) : idx_main_v30 (ix4 j b i (0 : Fin 1)) = ix4 j b i (0 : Fin 4) := by
  funext a; match a with | ⟨0, _⟩ => rfl | ⟨1, _⟩ => rfl | ⟨2, _⟩ => rfl | ⟨3, _⟩ => rfl

/-- The unit slice of the inner axis at offset 1 reads (j, b, i, 0) at (j, b, i, 1). -/
theorem idx32 (j : Fin 256) (b : Fin 1024) (i : Fin 256) : idx_main_v32 (ix4 j b i (0 : Fin 1)) = ix4 j b i (1 : Fin 4) := by
  funext a; match a with | ⟨0, _⟩ => rfl | ⟨1, _⟩ => rfl | ⟨2, _⟩ => rfl | ⟨3, _⟩ => rfl

/-- The unit slice of the inner axis at offset 2 reads (j, b, i, 0) at (j, b, i, 2). -/
theorem idx34 (j : Fin 256) (b : Fin 1024) (i : Fin 256) : idx_main_v34 (ix4 j b i (0 : Fin 1)) = ix4 j b i (2 : Fin 4) := by
  funext a; match a with | ⟨0, _⟩ => rfl | ⟨1, _⟩ => rfl | ⟨2, _⟩ => rfl | ⟨3, _⟩ => rfl

/-- The unit slice of the inner axis at offset 3 reads (j, b, i, 0) at (j, b, i, 3). -/
theorem idx36 (j : Fin 256) (b : Fin 1024) (i : Fin 256) : idx_main_v36 (ix4 j b i (0 : Fin 1)) = ix4 j b i (3 : Fin 4) := by
  funext a; match a with | ⟨0, _⟩ => rfl | ⟨1, _⟩ => rfl | ⟨2, _⟩ => rfl | ⟨3, _⟩ => rfl

/-- Coefficient 0 of the selected interval's cubic at (j, b, i). -/
theorem coef0_at (x0 : (⟨S1024x256, .f32⟩ : BufTy).Contents (Elt Ideal)) (x1 : (⟨S256x256x19x4, .f32⟩ : BufTy).Contents (Elt Ideal)) (j : Fin 256) (b : Fin 1024) (i : Fin 256) :
    val_main_v31 (F := Ideal) x0 x1 (ix3 j b i) = x1 (ix4 j i (Cert.Spline.knotIdx (x0 (ix2 b i))) (0 : Fin 4)) := by
  rw [val_main_v31_apply, val_main_v30_apply, idx31, idx30, gather_at]

/-- Coefficient 1 of the selected interval's cubic at (j, b, i). -/
theorem coef1_at (x0 : (⟨S1024x256, .f32⟩ : BufTy).Contents (Elt Ideal)) (x1 : (⟨S256x256x19x4, .f32⟩ : BufTy).Contents (Elt Ideal)) (j : Fin 256) (b : Fin 1024) (i : Fin 256) :
    val_main_v33 (F := Ideal) x0 x1 (ix3 j b i) = x1 (ix4 j i (Cert.Spline.knotIdx (x0 (ix2 b i))) (1 : Fin 4)) := by
  rw [val_main_v33_apply, val_main_v32_apply, idx33, idx32, gather_at]

/-- Coefficient 2 of the selected interval's cubic at (j, b, i). -/
theorem coef2_at (x0 : (⟨S1024x256, .f32⟩ : BufTy).Contents (Elt Ideal)) (x1 : (⟨S256x256x19x4, .f32⟩ : BufTy).Contents (Elt Ideal)) (j : Fin 256) (b : Fin 1024) (i : Fin 256) :
    val_main_v35 (F := Ideal) x0 x1 (ix3 j b i) = x1 (ix4 j i (Cert.Spline.knotIdx (x0 (ix2 b i))) (2 : Fin 4)) := by
  rw [val_main_v35_apply, val_main_v34_apply, idx35, idx34, gather_at]

/-- Coefficient 3 of the selected interval's cubic at (j, b, i). -/
theorem coef3_at (x0 : (⟨S1024x256, .f32⟩ : BufTy).Contents (Elt Ideal)) (x1 : (⟨S256x256x19x4, .f32⟩ : BufTy).Contents (Elt Ideal)) (j : Fin 256) (b : Fin 1024) (i : Fin 256) :
    val_main_v37 (F := Ideal) x0 x1 (ix3 j b i) = x1 (ix4 j i (Cert.Spline.knotIdx (x0 (ix2 b i))) (3 : Fin 4)) := by
  rw [val_main_v37_apply, val_main_v36_apply, idx37, idx36, gather_at]

/-! ## The local abscissa broadcast over the output axis -/

/-- The two broadcasts over the output axis read (j, b, i) at (b, i). -/
theorem idx39 (j : Fin 256) (b : Fin 1024) (i : Fin 256) : idx_main_v38 (idx_main_v39 (ix3 j b i)) = ix2 b i := by
  funext a; match a with | ⟨0, _⟩ => rfl | ⟨1, _⟩ => rfl

/-- The broadcast local abscissa at (j, b, i) is the local abscissa of x[b, i]. -/
theorem t39_at (x0 : (⟨S1024x256, .f32⟩ : BufTy).Contents (Elt Ideal)) (j : Fin 256) (b : Fin 1024) (i : Fin 256) :
    val_main_v39 (F := Ideal) x0 (ix3 j b i) = Cert.Spline.loc (x0 (ix2 b i)) := by
  rw [val_main_v39_apply, val_main_v38_apply, idx39, loc_at]

/-- The two broadcasts over the output axis read (j, b, i) at (b, i). -/
theorem idx43 (j : Fin 256) (b : Fin 1024) (i : Fin 256) : idx_main_v42 (idx_main_v43 (ix3 j b i)) = ix2 b i := by
  funext a; match a with | ⟨0, _⟩ => rfl | ⟨1, _⟩ => rfl

/-- The broadcast local abscissa at (j, b, i) is the local abscissa of x[b, i]. -/
theorem t43_at (x0 : (⟨S1024x256, .f32⟩ : BufTy).Contents (Elt Ideal)) (j : Fin 256) (b : Fin 1024) (i : Fin 256) :
    val_main_v43 (F := Ideal) x0 (ix3 j b i) = Cert.Spline.loc (x0 (ix2 b i)) := by
  rw [val_main_v43_apply, val_main_v42_apply, idx43, loc_at]

/-- The two broadcasts over the output axis read (j, b, i) at (b, i). -/
theorem idx47 (j : Fin 256) (b : Fin 1024) (i : Fin 256) : idx_main_v46 (idx_main_v47 (ix3 j b i)) = ix2 b i := by
  funext a; match a with | ⟨0, _⟩ => rfl | ⟨1, _⟩ => rfl

/-- The broadcast local abscissa at (j, b, i) is the local abscissa of x[b, i]. -/
theorem t47_at (x0 : (⟨S1024x256, .f32⟩ : BufTy).Contents (Elt Ideal)) (j : Fin 256) (b : Fin 1024) (i : Fin 256) :
    val_main_v47 (F := Ideal) x0 (ix3 j b i) = Cert.Spline.loc (x0 (ix2 b i)) := by
  rw [val_main_v47_apply, val_main_v46_apply, idx47, loc_at]

/-! ## The summand, the sum and the bias -/

/-- The summand at (j, b, i): the selected cubic at the local abscissa, by Horner's rule. -/
theorem summand_at (x0 : (⟨S1024x256, .f32⟩ : BufTy).Contents (Elt Ideal)) (x1 : (⟨S256x256x19x4, .f32⟩ : BufTy).Contents (Elt Ideal)) (j : Fin 256) (b : Fin 1024) (i : Fin 256) :
    val_main_v49 (F := Ideal) x0 x1 (ix3 j b i)
      = ((x1 (ix4 j i (Cert.Spline.knotIdx (x0 (ix2 b i))) (3 : Fin 4)) * Cert.Spline.loc (x0 (ix2 b i))
            + x1 (ix4 j i (Cert.Spline.knotIdx (x0 (ix2 b i))) (2 : Fin 4))) * Cert.Spline.loc (x0 (ix2 b i))
          + x1 (ix4 j i (Cert.Spline.knotIdx (x0 (ix2 b i))) (1 : Fin 4))) * Cert.Spline.loc (x0 (ix2 b i))
        + x1 (ix4 j i (Cert.Spline.knotIdx (x0 (ix2 b i))) (0 : Fin 4)) := by
  rw [val_main_v49_apply, val_main_v48_apply, val_main_v45_apply, val_main_v44_apply, val_main_v41_apply,
    val_main_v40_apply, coef3_at, coef2_at, coef1_at, coef0_at, t39_at, t43_at, t47_at]
  rfl

/-- The transpose and the reduction read (b, j) at (j, b, k), k the summed input coordinate. -/
theorem idx50 (b : Fin 1024) (j : Fin 256) (k : Fin 256) : idx_main_v50 (idx_main_v51 (ix2 b j)) k = ix3 j b k := by
  funext a; match a with | ⟨0, _⟩ => rfl | ⟨1, _⟩ => rfl | ⟨2, _⟩ => rfl

/-- The two broadcasts of the bias read (b, j) at j. -/
theorem idx52 (b : Fin 1024) (j : Fin 256) : idx_main_v52 (idx_main_v53 (ix2 b j)) = ix1 j := by
  funext a; match a with | ⟨0, _⟩ => rfl

/-- The result at (b, j): zero plus the sum over the input coordinates of the selected cubics, plus the bias. -/
theorem result_apply (x0 : (⟨S1024x256, .f32⟩ : BufTy).Contents (Elt Ideal))
    (x1 : (⟨S256x256x19x4, .f32⟩ : BufTy).Contents (Elt Ideal)) (x2 : (⟨S256, .f32⟩ : BufTy).Contents (Elt Ideal))
    (b : Fin 1024) (j : Fin 256) :
    val_main_v54 (F := Ideal) x0 x1 x2 (ix2 b j)
      = Cert.Spline.horner (fun i => x0 (ix2 b i)) (fun i k mm => x1 (ix4 j i k mm)) (x2 (ix1 j)) := by
  rw [val_main_v54_apply, val_main_v51_apply, val_main_v50_apply, val_main_v53_apply, val_main_v52_apply,
    val_main_cst_8_apply, idx52]
  simp only [idx50, summand_at, Ideal.ofBits_def, Ideal.ofBits_zero_f32, Ideal.addf_def]
  rfl

end Cert.ReferenceIdeal.RefValue

end
-- ==== Proof.SplineLaw.lean ====
/-
  The two arrangements of a piecewise-cubic output entry agree when every abscissa and every coefficient is a real
  number: summing, over all 19 intervals, the four power sums weighted by the interval's indicator selects for each
  input coordinate exactly its own interval's cubic, because the clamped interval index lies in 0 … 18 and the
  indicator is 1 on it and 0 elsewhere; and a cubic's monomial form equals its Horner form over the reals.

  The steps: the two knot constants are real numbers, so at a real abscissa the offset from the left knot is real;
  the indicator is the real number 1 or 0; hence every summand is the image of a real number, the image of the reals
  commutes with finite sums, and the claim becomes an identity between two finite real sums. There the order of the
  two summations is exchanged, and for each input coordinate the sum over the intervals keeps the single term of its
  own interval. The outer `0 + _` and `_ + bias` are never opened: the bias may be infinite.
-/
import proofs.«174962_j30588757082465_1_alg».proof.Proof.Spline
import Mathlib.Data.EReal.Basic

noncomputable section
namespace Cert.Spline
open Idealize.ShloMosaic

/-! ### The knot constants are real numbers -/

/-- The left end of the knot range is the real number -5. -/
theorem lo_real : ∃ r : ℝ, lo = (r : EReal) := by
  refine ⟨-5, ?_⟩
  simp [lo, Ideal.ofBits, Ideal.ieee, -EReal.coe_mul]
  norm_num

/-- The knot spacing is a (positive, normal) real number; only its being real is used. -/
theorem step_real : ∃ r : ℝ, step = (r : EReal) := by
  simp [step, Ideal.ofBits, Ideal.ieee, -EReal.coe_mul]

/-! ### The clamped interval index lies in 0 … 18 -/

/-- Clamping a signed word below by 0 and above by 18 leaves a value in 0 … 18. -/
theorem clamp_range (w : BitVec 32) :
    0 ≤ (IntOp.minsi 18#32 (IntOp.maxsi 0#32 w)).toInt ∧ (IntOp.minsi 18#32 (IntOp.maxsi 0#32 w)).toInt ≤ 18 := by
  unfold IntOp.minsi IntOp.maxsi
  simp only [BitVec.slt]
  split <;> split <;> simp_all <;> omega

theorem knot_toInt_nonneg (x : EReal) : 0 ≤ (knot x).toInt := (clamp_range _).1

theorem knot_toInt_le (x : EReal) : (knot x).toInt ≤ 18 := (clamp_range _).2

/-- Among the words of 0 … 18, the interval index is the word of its own value and of no other. -/
theorem knot_eq_ofNat_iff (x : EReal) (s : ℕ) (hs : s < 19) :
    knot x = BitVec.ofNat 32 s ↔ s = (knot x).toInt.toNat := by
  have h0 := knot_toInt_nonneg x
  have h1 := knot_toInt_le x
  have hk := BitVec.toInt_eq_toNat_cond (knot x)
  have hlt := (knot x).isLt
  constructor
  · intro h
    have h2 := congrArg BitVec.toNat h
    simp only [BitVec.toNat_ofNat] at h2
    split at hk <;> omega
  · intro h
    apply BitVec.eq_of_toNat_eq
    simp only [BitVec.toNat_ofNat]
    split at hk <;> omega

/-- The indicator of an interval is the real number 1 on that interval and 0 off it. -/
theorem ind_coe (k : BitVec 32) (x : EReal) :
    ind k x = (((if knot x = k then 1 else 0 : ℝ)) : EReal) := by
  by_cases h : knot x = k
  · simp [ind, IntOp.cmpi, h]
  · have hb : (knot x == k) = false := beq_eq_false_iff_ne.2 h
    simp [ind, IntOp.cmpi, h, hb]

/-- At a real abscissa the offset from the left knot is a real number. -/
theorem loc_coe (r : ℝ) : ∃ t : ℝ, loc (r : EReal) = (t : EReal) := by
  obtain ⟨l, hl⟩ := lo_real
  obtain ⟨s, hs⟩ := step_real
  refine ⟨r - (l + ((knot (r : EReal)).toInt : ℝ) * s), ?_⟩
  simp only [loc, hl, hs]
  rw [EReal.coe_sub, EReal.coe_add, EReal.coe_mul]

/-- The coercion of the reals into the extended reals commutes with finite sums. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Over the reals: summing over the 19 intervals the four monomials of one coordinate, each weighted by the
    indicator of the interval, leaves the cubic of the one interval `n` the indicator selects, in Horner form. -/
theorem real_select (k : BitVec 32) (n : ℕ) (hn : n < 19)
    (hk : ∀ s, s < 19 → (k = BitVec.ofNat 32 s ↔ s = n)) (a : Fin 19 → Fin 4 → ℝ) (t : ℝ) :
    ∑ s ∈ Finset.range 19,
      ((((if k = BitVec.ofNat 32 s then 1 else 0 : ℝ) * a ⟨s % 19, Nat.mod_lt _ (by decide)⟩ 0
        + ((if k = BitVec.ofNat 32 s then 1 else 0 : ℝ) * t) * a ⟨s % 19, Nat.mod_lt _ (by decide)⟩ 1)
        + ((if k = BitVec.ofNat 32 s then 1 else 0 : ℝ) * (t * t)) * a ⟨s % 19, Nat.mod_lt _ (by decide)⟩ 2)
        + ((if k = BitVec.ofNat 32 s then 1 else 0 : ℝ) * (t * t * t)) * a ⟨s % 19, Nat.mod_lt _ (by decide)⟩ 3)
      = ((a ⟨n, hn⟩ 3 * t + a ⟨n, hn⟩ 2) * t + a ⟨n, hn⟩ 1) * t + a ⟨n, hn⟩ 0 := by
  rw [Finset.sum_eq_single n]
  · have hnn : (⟨n % 19, Nat.mod_lt _ (by decide)⟩ : Fin 19) = ⟨n, hn⟩ := Fin.ext (Nat.mod_eq_of_lt hn)
    rw [if_pos ((hk n hn).2 rfl), hnn]
    ring
  · intro s hs hne
    rw [if_neg (fun h => hne ((hk s (Finset.mem_range.1 hs)).1 h))]
    ring
  · intro h
    exact absurd (Finset.mem_range.2 hn) h

theorem oneHot_eq_horner (x : Fin 256 → EReal) (c : Fin 256 → Fin 19 → Fin 4 → EReal) (bias : EReal)
    (hx : ∀ i, x i ≠ ⊤ ∧ x i ≠ ⊥) (hc : ∀ i k m, c i k m ≠ ⊤ ∧ c i k m ≠ ⊥) :
    oneHot x c bias = horner x c bias := by
  obtain ⟨xr, rfl⟩ : ∃ xr : Fin 256 → ℝ, x = fun i => (xr i : EReal) :=
    ⟨fun i => (x i).toReal, funext fun i => (EReal.coe_toReal (hx i).1 (hx i).2).symm⟩
  obtain ⟨cr, rfl⟩ : ∃ cr : Fin 256 → Fin 19 → Fin 4 → ℝ, c = fun i k m => (cr i k m : EReal) :=
    ⟨fun i k m => (c i k m).toReal, by
      funext i k m; exact (EReal.coe_toReal (hc i k m).1 (hc i k m).2).symm⟩
  choose t ht using fun i => loc_coe (xr i)
  unfold oneHot horner
  refine congrArg (· + bias) (congrArg (0 + ·) ?_)
  simp only [share, ind_coe, ht, ← EReal.coe_mul, ← EReal.coe_add, coe_sum]
  rw [EReal.coe_eq_coe_iff]
  simp only [← Finset.sum_add_distrib]
  rw [Finset.sum_comm]
  refine Finset.sum_congr rfl fun i _ => ?_
  have h0 := knot_toInt_nonneg (xr i : EReal)
  have h1 := knot_toInt_le (xr i : EReal)
  have hn : (knot (xr i : EReal)).toInt.toNat < 19 := by omega
  have hidx : knotIdx (xr i : EReal) = ⟨(knot (xr i : EReal)).toInt.toNat, hn⟩ := by
    apply Fin.ext
    simp only [knotIdx]
    omega
  rw [hidx]
  exact real_select (knot (xr i : EReal)) _ hn (fun s hs => knot_eq_ofNat_iff _ s hs) (cr i) (t i)

end Cert.Spline
end
-- ==== Proof.Finite.lean ====
/-
  From the precondition to real numbers: when "every |entry| < +inf" holds of all three inputs, every entry of the
  abscissa array and of the coefficient array is a real number (neither infinity).
-/
import proofs.«174962_j30588757082465_1_alg».proof.Pre_finite_inputs
import Idealize.ShloMosaic.PureOps.Ideal
import Idealize.ShloMosaic.Lib.ReduceAll

noncomputable section

namespace Cert.Finite

open Idealize.ShloMosaic

/-- The single-precision word with all exponent bits set, a clear sign and a zero fraction denotes +∞. -/
theorem ofBits_posInf : Ideal.ofBits .f32 0x7F800000#32 = (⊤ : EReal) := by
  simp [Ideal.ofBits, Ideal.ieee]

/-- An extended real whose absolute value max(x, -x) lies strictly below +∞ is a real number: at x = +∞ the maximum
    is x itself, at x = -∞ it is -x = +∞, and in both cases it is not below +∞. -/
theorem real_of_abs_lt (x : EReal)
    (h : Ideal.cmp .olt (max x (-x)) (Ideal.ofBits .f32 0x7F800000#32) = 1#1) : x ≠ ⊤ ∧ x ≠ ⊥ := by
  rw [ofBits_posInf] at h
  have hlt : max x (-x) < ⊤ := by
    by_contra hn
    simp [Ideal.cmp, hn] at h
  constructor
  · rintro rfl
    simp at hlt
  · rintro rfl
    simp at hlt

/-- The shape with no axes has exactly one index. -/
local instance : Subsingleton Cert.Pre_finite_inputs.S_.Idx := ⟨fun a b => funext fun d => d.elim0⟩

theorem real_of_pre [Cert.Pre_finite_inputs.Facts]
    (a0 : FVec Ideal Cert.Pre_finite_inputs.S1024x256 .f32) (a1 : FVec Ideal Cert.Pre_finite_inputs.S256x256x19x4 .f32)
    (a2 : FVec Ideal Cert.Pre_finite_inputs.S256 .f32)
    (h : Cert.Pre_finite_inputs.fn (F := Ideal) a0 a1 a2 = fun _ => 1#1) :
    (∀ i, a0 i ≠ ⊤ ∧ a0 i ≠ ⊥) ∧ (∀ i, a1 i ≠ ⊤ ∧ a1 i ≠ ⊥) := by
  -- The conjunction of the three "all" reductions is 1 at the single index of the rank-0 result.
  have h0 := congrFun h (fun d => d.elim0)
  dsimp only [Cert.Pre_finite_inputs.fn] at h0
  change IntOp.andi (IntOp.andi _ _) _ = 1#1 at h0
  obtain ⟨h01, _⟩ := IntOp.andi_eq_one.1 h0
  obtain ⟨hA, hB⟩ := IntOp.andi_eq_one.1 h01
  refine ⟨fun i => ?_, fun i => ?_⟩
  · -- Each element of the first comparison array is 1, which reads |a0 i| < +∞.
    exact real_of_abs_lt (a0 i) (Host.reduce_andi_all _ _ _ _ _ hA i)
  · exact real_of_abs_lt (a1 i) (Host.reduce_andi_all _ _ _ _ _ hB i)

end Cert.Finite

end
-- ==== Proof.lean ====
/-
  The piecewise-cubic layer: the kernel against its reference, over the extended reals.
  Both programs locate each abscissa x[b, i] in one of 19 knot intervals (clamp(floor((x + 5) / h), 0, 18), h the
  single-precision value nearest 10/19) and measure it from that interval's left knot. The reference gathers the
  interval's four coefficients c[j, i, interval, ·] and evaluates the cubic by Horner's rule, sums over the input
  coordinates i and adds bias[j]. The kernel never gathers: for each interval k in turn it multiplies the indicator of
  "x[b, i] lies in k" into the powers 1, t, t², t³, takes four matrix products against the coefficient planes
  c[·, ·, k, m] and accumulates over k, adding the bias after the last interval. For real abscissae and coefficients
  the indicator selects exactly one interval per (b, i), and a cubic's monomial form equals its Horner form, so the two
  agree entry by entry (Proof/SplineLaw.lean); the precondition supplies the reals (Proof/Finite.lean). The kernel's
  output array is read off its generated frame run (Proof/KernelPieces, KernelStep, KernelBlocks, KernelFold), the
  reference's off its generated run, operation by operation (Proof/RefGather, RefRead). No operation of the kernel is
  rewritten by the idealization, so that claim is trivial; the frames are the generated ones.
-/
import proofs.«174962_j30588757082465_1_alg».proof.Defs
import proofs.«174962_j30588757082465_1_alg».proof.Proof.Gen.Kernel
import proofs.«174962_j30588757082465_1_alg».proof.Proof.Gen.Kernel.Skeleton
import proofs.«174962_j30588757082465_1_alg».proof.Proof.Gen.Kernel.Launch
import proofs.«174962_j30588757082465_1_alg».proof.Proof.Gen.Kernel.Points
import proofs.«174962_j30588757082465_1_alg».proof.Proof.Gen.Kernel.Frame
import proofs.«174962_j30588757082465_1_alg».proof.Proof.Gen.KernelIdeal
import proofs.«174962_j30588757082465_1_alg».proof.Proof.Gen.KernelIdeal.Skeleton
import proofs.«174962_j30588757082465_1_alg».proof.Proof.Gen.KernelIdeal.Launch
import proofs.«174962_j30588757082465_1_alg».proof.Proof.Gen.KernelIdeal.Points
import proofs.«174962_j30588757082465_1_alg».proof.Proof.Gen.KernelIdeal.Frame
import proofs.«174962_j30588757082465_1_alg».proof.Proof.Gen.ReferenceIdeal
import proofs.«174962_j30588757082465_1_alg».proof.Proof.Gen.Pre_finite_inputs
import proofs.«174962_j30588757082465_1_alg».proof.Proof.Gen.KernelIdeal.Value
import proofs.«174962_j30588757082465_1_alg».proof.Proof.Gen.ReferenceIdeal.Run
import proofs.«174962_j30588757082465_1_alg».proof.Proof.Gen.ReferenceIdeal.Read
import proofs.«174962_j30588757082465_1_alg».proof.Proof.KernelFold
import proofs.«174962_j30588757082465_1_alg».proof.Proof.RefRead
import proofs.«174962_j30588757082465_1_alg».proof.Proof.SplineLaw
import proofs.«174962_j30588757082465_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's output array ends at the sum over the intervals of their shares plus the bias, the reference's at the
    Horner sums plus the bias, of arguments that agree; under the precondition the abscissae and the coefficients are
    real numbers, and there the two arrangements are one number. -/
theorem algebraic : Cert.algebraic_KernelIdeal_ReferenceIdeal := by
  intro m ρ m' ρ' hpre hagree
  refine ⟨fun c => Cert.KernelIdeal.KanValue.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.KanValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2]
  obtain ⟨hx, hc⟩ := Cert.Finite.real_of_pre _ _ _ (hpre c)
  funext idx
  obtain ⟨b, j, rfl⟩ : ∃ (b : Fin 1024) (j : Fin 256), idx = ix2 b j := ⟨idx 0, idx 1, eq_ix2 idx⟩
  rw [Cert.ReferenceIdeal.RefValue.result_apply]
  exact (Cert.Spline.oneHot_eq_horner _ _ _ (fun i => hx _) (fun i k mm => hc _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
